-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4880 : Shape := ⟨1, ![4880]⟩
abbrev S4880x28 : Shape := ⟨2, ![4880, 28]⟩
abbrev S128x28 : Shape := ⟨2, ![128, 28]⟩
abbrev S4880x4880 : Shape := ⟨2, ![4880, 4880]⟩
abbrev S56x32 : Shape := ⟨2, ![56, 32]⟩
abbrev S32 : Shape := ⟨1, ![32]⟩
abbrev S_ : Shape := ⟨0, ![]⟩

class Facts : Prop where
  bcast_S_S4880 : S_.BroadcastsInDim S4880 (![] : Fin 0 → Fin S4880.rank)
  reducesTo_S4880_S_d0 : S4880.ReducesTo [0] S_
  h_S_ : 0 < S_.numel
  bcast_S_S4880x28 : S_.BroadcastsInDim S4880x28 (![] : Fin 0 → Fin S4880x28.rank)
  reducesTo_S4880x28_S_d0_1 : S4880x28.ReducesTo [0, 1] S_
  bcast_S_S128x28 : S_.BroadcastsInDim S128x28 (![] : Fin 0 → Fin S128x28.rank)
  reducesTo_S128x28_S_d0_1 : S128x28.ReducesTo [0, 1] S_
  bcast_S_S4880x4880 : S_.BroadcastsInDim S4880x4880 (![] : Fin 0 → Fin S4880x4880.rank)
  reducesTo_S4880x4880_S_d0_1 : S4880x4880.ReducesTo [0, 1] S_
  bcast_S_S56x32 : S_.BroadcastsInDim S56x32 (![] : Fin 0 → Fin S56x32.rank)
  reducesTo_S56x32_S_d0_1 : S56x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S128x28 .f32) (main_arg6 : FVec F S4880x4880 .f32) (main_arg7 : FVec F S56x32 .f32) (main_arg8 : FVec F S32 .f32) (main_v13 : IVec S_ 1) (main_v16 : IVec S4880x28 1) : IVec S_ 1 :=
  let main_c_5 : IVec S_ 1 := constantI S_ 1 1#1
  let main_v17 : IVec S_ 1 := (fun x v => Host.reduce IntOp.andi x v reducesTo_S4880x28_S_d0_1 h_S_) main_v16 main_c_5
  let main_v18 : IVec S_ 1 := andi main_v13 main_v17
  let main_v19 : FVec F S128x28 .f32 := Host.absf main_arg4
  let main_cst_6 : FVec F S_ .f32 := constant S_ .f32 0x7F800000#32
  let main_v20 : FVec F S128x28 .f32 := broadcastInDim S128x28 ![] bcast_S_S128x28 main_cst_6
  let main_v21 : IVec S128x28 1 := cmpf .olt main_v19 main_v20
  let main_c_7 : IVec S_ 1 := constantI S_ 1 1#1
  let main_v22 : IVec S_ 1 := (fun x v => Host.reduce IntOp.andi x v reducesTo_S128x28_S_d0_1 h_S_) main_v21 main_c_7
  let main_v23 : IVec S_ 1 := andi main_v18 main_v22
  let main_v24 : FVec F S4880x4880 .f32 := Host.absf main_arg6
  let main_cst_8 : FVec F S_ .f32 := constant S_ .f32 0x7F800000#32
  let main_v25 : FVec F S4880x4880 .f32 := broadcastInDim S4880x4880 ![] bcast_S_S4880x4880 main_cst_8
  let main_v26 : IVec S4880x4880 1 := cmpf .olt main_v24 main_v25
  let main_c_9 : IVec S_ 1 := constantI S_ 1 1#1
  let main_v27 : IVec S_ 1 := (fun x v => Host.reduce IntOp.andi x v reducesTo_S4880x4880_S_d0_1 h_S_) main_v26 main_c_9
  let main_v28 : IVec S_ 1 := andi main_v23 main_v27
  let main_v29 : FVec F S56x32 .f32 := Host.absf main_arg7
  let main_cst_10 : FVec F S_ .f32 := constant S_ .f32 0x7F800000#32
  let main_v30 : FVec F S56x32 .f32 := broadcastInDim S56x32 ![] bcast_S_S56x32 main_cst_10
  let main_v31 : IVec S56x32 1 := cmpf .olt main_v29 main_v30
  let main_c_11 : IVec S_ 1 := constantI S_ 1 1#1
  let main_v32 : IVec S_ 1 := (fun x v => Host.reduce IntOp.andi x v reducesTo_S56x32_S_d0_1 h_S_) main_v31 main_c_11
  let main_v33 : IVec S_ 1 := andi main_v28 main_v32
  fn_part2 (F := F) main_arg8 main_v33

def fn {F : FTy → Type} [FloatOps F] (main_arg0 : FVec F S4880 .f32) (main_arg1 : FVec F S4880 .f32) (main_arg2 : FVec F S4880x28 .f32) (main_arg3 : FVec F S4880x28 .f32) (main_arg4 : FVec F S128x28 .f32) (main_arg5 : IVec S4880 32) (main_arg6 : FVec F S4880x4880 .f32) (main_arg7 : FVec F S56x32 .f32) (main_arg8 : FVec F S32 .f32) : IVec S_ 1 :=
  let main_v0 : FVec F S4880 .f32 := Host.absf main_arg0
  let main_cst : FVec F S_ .f32 := constant S_ .f32 0x7F800000#32
  let main_v1 : FVec F S4880 .f32 := broadcastInDim S4880 ![] bcast_S_S4880 main_cst
  let main_v2 : IVec S4880 1 := cmpf .olt main_v0 main_v1
  let main_c : IVec S_ 1 := constantI S_ 1 1#1
  let main_v3 : IVec S_ 1 := (fun x v => Host.reduce IntOp.andi x v reducesTo_S4880_S_d0 h_S_) main_v2 main_c
  let main_v4 : FVec F S4880 .f32 := Host.absf main_arg1
  let main_cst_0 : FVec F S_ .f32 := constant S_ .f32 0x7F800000#32
  let main_v5 : FVec F S4880 .f32 := broadcastInDim S4880 ![] bcast_S_S4880 main_cst_0
  let main_v6 : IVec S4880 1 := cmpf .olt main_v4 main_v5
  let main_c_1 : IVec S_ 1 := constantI S_ 1 1#1
  let main_v7 : IVec S_ 1 := (fun x v => Host.reduce IntOp.andi x v reducesTo_S4880_S_d0 h_S_) main_v6 main_c_1
  let main_v8 : IVec S_ 1 := andi main_v3 main_v7
  let main_v9 : FVec F S4880x28 .f32 := Host.absf main_arg2
  let main_cst_2 : FVec F S_ .f32 := constant S_ .f32 0x7F800000#32
  let main_v10 : FVec F S4880x28 .f32 := broadcastInDim S4880x28 ![] bcast_S_S4880x28 main_cst_2
  let main_v11 : IVec S4880x28 1 := cmpf .olt main_v9 main_v10
  let main_c_3 : IVec S_ 1 := constantI S_ 1 1#1
  let main_v12 : IVec S_ 1 := (fun x v => Host.reduce IntOp.andi x v reducesTo_S4880x28_S_d0_1 h_S_) main_v11 main_c_3
  let main_v13 : IVec S_ 1 := andi main_v8 main_v12
  let main_v14 : FVec F S4880x28 .f32 := Host.absf main_arg3
  let main_cst_4 : FVec F S_ .f32 := constant S_ .f32 0x7F800000#32
  let main_v15 : FVec F S4880x28 .f32 := broadcastInDim S4880x28 ![] bcast_S_S4880x28 main_cst_4
  let main_v16 : IVec S4880x28 1 := cmpf .olt main_v14 main_v15
  fn_part1 (F := F) main_arg4 main_arg6 main_arg7 main_arg8 main_v13 main_v16
-- ==== Kernel.lean ====
abbrev S4880 : Shape := ⟨1, ![4880]⟩
abbrev S4880x28 : Shape := ⟨2, ![4880, 28]⟩
abbrev S128x28 : Shape := ⟨2, ![128, 28]⟩
abbrev S4880x4880 : Shape := ⟨2, ![4880, 4880]⟩
abbrev S56x32 : Shape := ⟨2, ![56, 32]⟩
abbrev S32 : Shape := ⟨1, ![32]⟩
abbrev S4880x1 : Shape := ⟨2, ![4880, 1]⟩
abbrev S_ : Shape := ⟨0, ![]⟩
abbrev S4880x56 : Shape := ⟨2, ![4880, 56]⟩
abbrev S4880x112 : Shape := ⟨2, ![4880, 112]⟩
abbrev S488x4880 : Shape := ⟨2, ![488, 4880]⟩
abbrev S488x112 : Shape := ⟨2, ![488, 112]⟩
abbrev S4880x32 : Shape := ⟨2, ![4880, 32]⟩
abbrev S1x32 : Shape := ⟨2, ![1, 32]⟩

abbrev nBuf : Space → Nat
  | .hbm => 81
  | .vmem => 5
  | .smem => 0
  | _ => 0

abbrev bufTy : (tb : Table) → Fin (tcTables nBuf tb) → BufTy
  | .hbm, ⟨0, _⟩ => ⟨S4880, .f32⟩
  | .hbm, ⟨1, _⟩ => ⟨S4880, .f32⟩
  | .hbm, ⟨2, _⟩ => ⟨S4880x28, .f32⟩
  | .hbm, ⟨3, _⟩ => ⟨S4880x28, .f32⟩
  | .hbm, ⟨4, _⟩ => ⟨S128x28, .f32⟩
  | .hbm, ⟨5, _⟩ => ⟨S4880, .i32⟩
  | .hbm, ⟨6, _⟩ => ⟨S4880x4880, .f32⟩
  | .hbm, ⟨7, _⟩ => ⟨S56x32, .f32⟩
  | .hbm, ⟨8, _⟩ => ⟨S32, .f32⟩
  | .hbm, ⟨9, _⟩ => ⟨S4880x1, .f32⟩
  | .hbm, ⟨10, _⟩ => ⟨S4880x1, .f32⟩
  | .hbm, ⟨11, _⟩ => ⟨S4880x28, .f32⟩
  | .hbm, ⟨12, _⟩ => ⟨S4880x28, .f32⟩
  | .hbm, ⟨13, _⟩ => ⟨S_, .i32⟩
  | .hbm, ⟨14, _⟩ => ⟨S4880, .i32⟩
  | .hbm, ⟨15, _⟩ => ⟨S4880, .i1⟩
  | .hbm, ⟨16, _⟩ => ⟨S_, .i32⟩
  | .hbm, ⟨17, _⟩ => ⟨S4880, .i32⟩
  | .hbm, ⟨18, _⟩ => ⟨S4880, .i32⟩
  | .hbm, ⟨19, _⟩ => ⟨S4880, .i32⟩
  | .hbm, ⟨20, _⟩ => ⟨S4880x1, .i32⟩
  | .hbm, ⟨21, _⟩ => ⟨S4880x28, .f32⟩
  | .hbm, ⟨22, _⟩ => ⟨S4880x28, .f32⟩
  | .hbm, ⟨23, _⟩ => ⟨S4880x28, .f32⟩
  | .hbm, ⟨24, _⟩ => ⟨S4880x28, .f32⟩
  | .hbm, ⟨25, _⟩ => ⟨S4880x28, .f32⟩
  | .hbm, ⟨26, _⟩ => ⟨S4880x56, .f32⟩
  | .hbm, ⟨27, _⟩ => ⟨S4880x28, .f32⟩
  | .hbm, ⟨28, _⟩ => ⟨S4880x28, .f32⟩
  | .hbm, ⟨29, _⟩ => ⟨S_, .i32⟩
  | .hbm, ⟨30, _⟩ => ⟨S4880, .i32⟩
  | .hbm, ⟨31, _⟩ => ⟨S4880, .i1⟩
  | .hbm, ⟨32, _⟩ => ⟨S_, .i32⟩
  | .hbm, ⟨33, _⟩ => ⟨S4880, .i32⟩
  | .hbm, ⟨34, _⟩ => ⟨S4880, .i32⟩
  | .hbm, ⟨35, _⟩ => ⟨S4880, .i32⟩
  | .hbm, ⟨36, _⟩ => ⟨S4880x1, .i32⟩
  | .hbm, ⟨37, _⟩ => ⟨S4880x28, .f32⟩
  | .hbm, ⟨38, _⟩ => ⟨S4880x28, .f32⟩
  | .hbm, ⟨39, _⟩ => ⟨S4880x28, .f32⟩
  | .hbm, ⟨40, _⟩ => ⟨S4880x56, .f32⟩
  | .hbm, ⟨41, _⟩ => ⟨S4880x112, .f32⟩
  | .hbm, ⟨42, _⟩ => ⟨S4880x112, .f32⟩
  | .hbm, ⟨43, _⟩ => ⟨S4880x56, .f32⟩
  | .hbm, ⟨44, _⟩ => ⟨S4880x56, .f32⟩
  | .hbm, ⟨45, _⟩ => ⟨S4880x56, .f32⟩
  | .hbm, ⟨46, _⟩ => ⟨S4880x56, .f32⟩
  | .hbm, ⟨47, _⟩ => ⟨S4880x56, .f32⟩
  | .hbm, ⟨48, _⟩ => ⟨S4880x56, .f32⟩
  | .hbm, ⟨49, _⟩ => ⟨S4880x56, .f32⟩
  | .hbm, ⟨50, _⟩ => ⟨S4880x56, .f32⟩
  | .hbm, ⟨51, _⟩ => ⟨S4880x56, .f32⟩
  | .hbm, ⟨52, _⟩ => ⟨S4880x56, .f32⟩
  | .hbm, ⟨53, _⟩ => ⟨S4880x56, .f32⟩
  | .hbm, ⟨54, _⟩ => ⟨S4880x56, .f32⟩
  | .hbm, ⟨55, _⟩ => ⟨S4880x32, .f32⟩
  | .hbm, ⟨56, _⟩ => ⟨S1x32, .f32⟩
  | .hbm, ⟨57, _⟩ => ⟨S4880x32, .f32⟩
  | .hbm, ⟨58, _⟩ => ⟨S4880x32, .f32⟩
  | .hbm, ⟨59, _⟩ => ⟨S_, .f32⟩
  | .hbm, ⟨60, _⟩ => ⟨S_, .f32⟩
  | .hbm, ⟨61, _⟩ => ⟨S4880x32, .f32⟩
  | .hbm, ⟨62, _⟩ => ⟨S4880x32, .i1⟩
  | .hbm, ⟨63, _⟩ => ⟨S_, .f32⟩
  | .hbm, ⟨64, _⟩ => ⟨S4880x32, .f32⟩
  | .hbm, ⟨65, _⟩ => ⟨S4880x32, .f32⟩
  | .hbm, ⟨66, _⟩ => ⟨S4880x32, .f32⟩
  | .hbm, ⟨67, _⟩ => ⟨S4880x56, .f32⟩
  | .hbm, ⟨68, _⟩ => ⟨S4880x56, .f32⟩
  | .hbm, ⟨69, _⟩ => ⟨S4880x32, .f32⟩
  | .hbm, ⟨70, _⟩ => ⟨S1x32, .f32⟩
  | .hbm, ⟨71, _⟩ => ⟨S4880x32, .f32⟩
  | .hbm, ⟨72, _⟩ => ⟨S4880x32, .f32⟩
  | .hbm, ⟨73, _⟩ => ⟨S_, .f32⟩
  | .hbm, ⟨74, _⟩ => ⟨S_, .f32⟩
  | .hbm, ⟨75, _⟩ => ⟨S4880x32, .f32⟩
  | .hbm, ⟨76, _⟩ => ⟨S4880x32, .i1⟩
  | .hbm, ⟨77, _⟩ => ⟨S_, .f32⟩
  | .hbm, ⟨78, _⟩ => ⟨S4880x32, .f32⟩
  | .hbm, ⟨79, _⟩ => ⟨S4880x32, .f32⟩
  | .hbm, ⟨80, _⟩ => ⟨S4880x32, .f32⟩
  | .local _ .vmem, ⟨0, _⟩ => ⟨S488x4880, .f32⟩
  | .local _ .vmem, ⟨1, _⟩ => ⟨S488x4880, .f32⟩
  | .local _ .vmem, ⟨2, _⟩ => ⟨S4880x112, .f32⟩
  | .local _ .vmem, ⟨3, _⟩ => ⟨S488x112, .f32⟩
  | .local _ .vmem, ⟨4, _⟩ => ⟨S488x112, .f32⟩
  | _, _ => ⟨S4880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_3 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S488x4880 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4880x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S488x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S4880_S4880x1_0 : S4880.BroadcastsInDim S4880x1 (![0] : Fin 1 → Fin S4880x1.rank)
  bcast_S4880x1_S4880x28_0_1 : S4880x1.BroadcastsInDim S4880x28 (![0, 1] : Fin 2 → Fin S4880x28.rank)
  bcast_S_S4880 : S_.BroadcastsInDim S4880 (![] : Fin 0 → Fin S4880.rank)
  concatenates_S4880x28_S4880x28_S4880x56_d1 : Shape.Concatenates [S4880x28, S4880x28] S4880x56 1
  concatenates_S4880x56_S4880x56_S4880x112_d1 : Shape.Concatenates [S4880x56, S4880x56] S4880x112 1
  inb_S488x4880_S488x4880_0_0 : ∀ a, (![0, 0] : Fin 2 → Nat) a + S488x4880.size a ≤ S488x4880.size a
  h_S488x4880 : 0 < S488x4880.numel
  bitsLt_bf16_f32 : FTy.bits .bf16 < FTy.bits .f32
  inb_S4880x112_S4880x112_0_0 : ∀ a, (![0, 0] : Fin 2 → Nat) a + S4880x112.size a ≤ S4880x112.size a
  h_S4880x112 : 0 < S4880x112.numel
  shapeCasts_S4880x112_S4880x112 : S4880x112.ShapeCasts S4880x112
  inb_S488x112_S488x112_0_0 : ∀ a, (![0, 0] : Fin 2 → Nat) a + S488x112.size a ≤ S488x112.size a
  h_S488x112 : 0 < S488x112.numel
  slices_S4880x112_S4880x56_0_0 : S4880x112.Slices ![0, 0] S4880x56
  slices_S4880x112_S4880x56_0_56 : S4880x112.Slices ![0, 56] S4880x56
  bcast_S4880x1_S4880x56_0_1 : S4880x1.BroadcastsInDim S4880x56 (![0, 1] : Fin 2 → Fin S4880x56.rank)
  bcast_S32_S1x32_1 : S32.BroadcastsInDim S1x32 (![1] : Fin 1 → Fin S1x32.rank)
  bcast_S1x32_S4880x32_0_1 : S1x32.BroadcastsInDim S4880x32 (![0, 1] : Fin 2 → Fin S4880x32.rank)
  bcast_S_S4880x32 : S_.BroadcastsInDim S4880x32 (![] : Fin 0 → Fin S4880x32.rank)
  gather_S128x28_S4880x1_S4880x28_1_0_n_n_0_1_128_wf : GatherDims.WF S128x28 S4880x1 S4880x28 [1] [0] [] [0] [] 1 ![1, 28]
  gather_S4880x28_S4880x1_S4880x28_1_0_n_n_0_1_128_wf : GatherDims.WF S4880x28 S4880x1 S4880x28 [1] [0] [] [0] [] 1 ![1, 28]
  dot_S488x4880_S4880x112_S488x112_1_0_0_1_n_n_wf : DotDims.WF S488x4880 S4880x112 S488x112 [1] [0] [0] [1] [] []
  dot_S4880x56_S56x32_S4880x32_1_0_0_1_n_n_wf : DotDims.WF S4880x56 S56x32 S4880x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S488x4880.size a ≤ S4880x4880.size a
  hwx0_0 : ∀ i : grid0.Coords, EltTy.bits .f32 = 32 ∨ (Rect.block (s := S4880x4880) S488x4880.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4880x112.size a ≤ S4880x112.size a
  hwx0_1 : ∀ i : grid0.Coords, EltTy.bits .f32 = 32 ∨ (Rect.block (s := S4880x112) S4880x112.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S488x112.size a ≤ S4880x112.size a
  hwx0_2 : ∀ i : grid0.Coords, EltTy.bits .f32 = 32 ∨ (Rect.block (s := S4880x112) S488x112.size (cc0_transform_2 i) (hinb0_2 i)).WholeWords (EltTy.packing .f32)

variable [Facts₀]

def gather_S128x28_S4880x1_S4880x28_1_0_n_n_0_1_128 : GatherDims S128x28 S4880x1 S4880x28 where
  offsetDims := [1]
  collapsedSliceDims := [0]
  operandBatchingDims := []
  startIndicesBatchingDims := []
  startIndexMap := [0]
  indexVectorDim := 1
  sliceSizes := ![1, 28]
  wf := gather_S128x28_S4880x1_S4880x28_1_0_n_n_0_1_128_wf
def gather_S4880x28_S4880x1_S4880x28_1_0_n_n_0_1_128 : GatherDims S4880x28 S4880x1 S4880x28 where
  offsetDims := [1]
  collapsedSliceDims := [0]
  operandBatchingDims := []
  startIndicesBatchingDims := []
  startIndexMap := [0]
  indexVectorDim := 1
  sliceSizes := ![1, 28]
  wf := gather_S4880x28_S4880x1_S4880x28_1_0_n_n_0_1_128_wf
def dot_S488x4880_S4880x112_S488x112_1_0_0_1_n_n : DotDims S488x4880 S4880x112 S488x112 where
  lhsContracting := [1]
  rhsContracting := [0]
  lhsNonContracting := [0]
  rhsNonContracting := [1]
  lhsBatch := []
  rhsBatch := []
  wf := dot_S488x4880_S4880x112_S488x112_1_0_0_1_n_n_wf
def dot_S4880x56_S56x32_S4880x32_1_0_0_1_n_n : DotDims S4880x56 S56x32 S4880x32 where
  lhsContracting := [1]
  rhsContracting := [0]
  lhsNonContracting := [0]
  rhsNonContracting := [1]
  lhsBatch := []
  rhsBatch := []
  wf := dot_S4880x56_S56x32_S4880x32_1_0_0_1_n_n_wf

abbrev win0_0 : Pipeline.Window sig grid0 :=
  Pipeline.Window.ofSpec (Memref.whole main_arg6) S488x4880.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S4880x112.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S488x112.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4880 : Shape := ⟨1, ![4880]⟩
abbrev S4880x28 : Shape := ⟨2, ![4880, 28]⟩
abbrev S128x28 : Shape := ⟨2, ![128, 28]⟩
abbrev S4880x4880 : Shape := ⟨2, ![4880, 4880]⟩
abbrev S56x32 : Shape := ⟨2, ![56, 32]⟩
abbrev S32 : Shape := ⟨1, ![32]⟩
abbrev S4880x1 : Shape := ⟨2, ![4880, 1]⟩
abbrev S_ : Shape := ⟨0, ![]⟩
abbrev S4880x56 : Shape := ⟨2, ![4880, 56]⟩
abbrev S4880x32 : Shape := ⟨2, ![4880, 32]⟩
abbrev S1x32 : Shape := ⟨2, ![1, 32]⟩

abbrev nBuf : Space → Nat
  | .hbm => 79
  | .vmem => 0
  | .smem => 0
  | _ => 0

abbrev bufTy : (tb : Table) → Fin (tcTables nBuf tb) → BufTy
  | .hbm, ⟨0, _⟩ => ⟨S4880, .f32⟩
  | .hbm, ⟨1, _⟩ => ⟨S4880, .f32⟩
  | .hbm, ⟨2, _⟩ => ⟨S4880x28, .f32⟩
  | .hbm, ⟨3, _⟩ => ⟨S4880x28, .f32⟩
  | .hbm, ⟨4, _⟩ => ⟨S128x28, .f32⟩
  | .hbm, ⟨5, _⟩ => ⟨S4880, .i32⟩
  | .hbm, ⟨6, _⟩ => ⟨S4880x4880, .f32⟩
  | .hbm, ⟨7, _⟩ => ⟨S56x32, .f32⟩
  | .hbm, ⟨8, _⟩ => ⟨S32, .f32⟩
  | .hbm, ⟨9, _⟩ => ⟨S4880x1, .f32⟩
  | .hbm, ⟨10, _⟩ => ⟨S4880x1, .f32⟩
  | .hbm, ⟨11, _⟩ => ⟨S4880x28, .f32⟩
  | .hbm, ⟨12, _⟩ => ⟨S4880x28, .f32⟩
  | .hbm, ⟨13, _⟩ => ⟨S_, .i32⟩
  | .hbm, ⟨14, _⟩ => ⟨S4880, .i32⟩
  | .hbm, ⟨15, _⟩ => ⟨S4880, .i1⟩
  | .hbm, ⟨16, _⟩ => ⟨S_, .i32⟩
  | .hbm, ⟨17, _⟩ => ⟨S4880, .i32⟩
  | .hbm, ⟨18, _⟩ => ⟨S4880, .i32⟩
  | .hbm, ⟨19, _⟩ => ⟨S4880, .i32⟩
  | .hbm, ⟨20, _⟩ => ⟨S4880x1, .i32⟩
  | .hbm, ⟨21, _⟩ => ⟨S4880x28, .f32⟩
  | .hbm, ⟨22, _⟩ => ⟨S4880x28, .f32⟩
  | .hbm, ⟨23, _⟩ => ⟨S4880x28, .f32⟩
  | .hbm, ⟨24, _⟩ => ⟨S4880x28, .f32⟩
  | .hbm, ⟨25, _⟩ => ⟨S4880x28, .f32⟩
  | .hbm, ⟨26, _⟩ => ⟨S4880x56, .f32⟩
  | .hbm, ⟨27, _⟩ => ⟨S4880x28, .f32⟩
  | .hbm, ⟨28, _⟩ => ⟨S4880x28, .f32⟩
  | .hbm, ⟨29, _⟩ => ⟨S_, .i32⟩
  | .hbm, ⟨30, _⟩ => ⟨S4880, .i32⟩
  | .hbm, ⟨31, _⟩ => ⟨S4880, .i1⟩
  | .hbm, ⟨32, _⟩ => ⟨S_, .i32⟩
  | .hbm, ⟨33, _⟩ => ⟨S4880, .i32⟩
  | .hbm, ⟨34, _⟩ => ⟨S4880, .i32⟩
  | .hbm, ⟨35, _⟩ => ⟨S4880, .i32⟩
  | .hbm, ⟨36, _⟩ => ⟨S4880x1, .i32⟩
  | .hbm, ⟨37, _⟩ => ⟨S4880x28, .f32⟩
  | .hbm, ⟨38, _⟩ => ⟨S4880x28, .f32⟩
  | .hbm, ⟨39, _⟩ => ⟨S4880x28, .f32⟩
  | .hbm, ⟨40, _⟩ => ⟨S4880x56, .f32⟩
  | .hbm, ⟨41, _⟩ => ⟨S4880x56, .f32⟩
  | .hbm, ⟨42, _⟩ => ⟨S4880x56, .f32⟩
  | .hbm, ⟨43, _⟩ => ⟨S4880x56, .f32⟩
  | .hbm, ⟨44, _⟩ => ⟨S4880x56, .f32⟩
  | .hbm, ⟨45, _⟩ => ⟨S4880x56, .f32⟩
  | .hbm, ⟨46, _⟩ => ⟨S4880x56, .f32⟩
  | .hbm, ⟨47, _⟩ => ⟨S4880x56, .f32⟩
  | .hbm, ⟨48, _⟩ => ⟨S4880x56, .f32⟩
  | .hbm, ⟨49, _⟩ => ⟨S4880x56, .f32⟩
  | .hbm, ⟨50, _⟩ => ⟨S4880x56, .f32⟩
  | .hbm, ⟨51, _⟩ => ⟨S4880x56, .f32⟩
  | .hbm, ⟨52, _⟩ => ⟨S4880x56, .f32⟩
  | .hbm, ⟨53, _⟩ => ⟨S4880x32, .f32⟩
  | .hbm, ⟨54, _⟩ => ⟨S1x32, .f32⟩
  | .hbm, ⟨55, _⟩ => ⟨S4880x32, .f32⟩
  | .hbm, ⟨56, _⟩ => ⟨S4880x32, .f32⟩
  | .hbm, ⟨57, _⟩ => ⟨S_, .f32⟩
  | .hbm, ⟨58, _⟩ => ⟨S_, .f32⟩
  | .hbm, ⟨59, _⟩ => ⟨S4880x32, .f32⟩
  | .hbm, ⟨60, _⟩ => ⟨S4880x32, .i1⟩
  | .hbm, ⟨61, _⟩ => ⟨S_, .f32⟩
  | .hbm, ⟨62, _⟩ => ⟨S4880x32, .f32⟩
  | .hbm, ⟨63, _⟩ => ⟨S4880x32, .f32⟩
  | .hbm, ⟨64, _⟩ => ⟨S4880x32, .f32⟩
  | .hbm, ⟨65, _⟩ => ⟨S4880x56, .f32⟩
  | .hbm, ⟨66, _⟩ => ⟨S4880x56, .f32⟩
  | .hbm, ⟨67, _⟩ => ⟨S4880x32, .f32⟩
  | .hbm, ⟨68, _⟩ => ⟨S1x32, .f32⟩
  | .hbm, ⟨69, _⟩ => ⟨S4880x32, .f32⟩
  | .hbm, ⟨70, _⟩ => ⟨S4880x32, .f32⟩
  | .hbm, ⟨71, _⟩ => ⟨S_, .f32⟩
  | .hbm, ⟨72, _⟩ => ⟨S_, .f32⟩
  | .hbm, ⟨73, _⟩ => ⟨S4880x32, .f32⟩
  | .hbm, ⟨74, _⟩ => ⟨S4880x32, .i1⟩
  | .hbm, ⟨75, _⟩ => ⟨S_, .f32⟩
  | .hbm, ⟨76, _⟩ => ⟨S4880x32, .f32⟩
  | .hbm, ⟨77, _⟩ => ⟨S4880x32, .f32⟩
  | .hbm, ⟨78, _⟩ => ⟨S4880x32, .f32⟩
  | _, _ => ⟨S4880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  bcast_S4880_S4880x1_0 : S4880.BroadcastsInDim S4880x1 (![0] : Fin 1 → Fin S4880x1.rank)
  bcast_S4880x1_S4880x28_0_1 : S4880x1.BroadcastsInDim S4880x28 (![0, 1] : Fin 2 → Fin S4880x28.rank)
  bcast_S_S4880 : S_.BroadcastsInDim S4880 (![] : Fin 0 → Fin S4880.rank)
  concatenates_S4880x28_S4880x28_S4880x56_d1 : Shape.Concatenates [S4880x28, S4880x28] S4880x56 1
  bcast_S4880x1_S4880x56_0_1 : S4880x1.BroadcastsInDim S4880x56 (![0, 1] : Fin 2 → Fin S4880x56.rank)
  bcast_S32_S1x32_1 : S32.BroadcastsInDim S1x32 (![1] : Fin 1 → Fin S1x32.rank)
  bcast_S1x32_S4880x32_0_1 : S1x32.BroadcastsInDim S4880x32 (![0, 1] : Fin 2 → Fin S4880x32.rank)
  bcast_S_S4880x32 : S_.BroadcastsInDim S4880x32 (![] : Fin 0 → Fin S4880x32.rank)
  gather_S128x28_S4880x1_S4880x28_1_0_n_n_0_1_128_wf : GatherDims.WF S128x28 S4880x1 S4880x28 [1] [0] [] [0] [] 1 ![1, 28]
  gather_S4880x28_S4880x1_S4880x28_1_0_n_n_0_1_128_wf : GatherDims.WF S4880x28 S4880x1 S4880x28 [1] [0] [] [0] [] 1 ![1, 28]
  dot_S4880x4880_S4880x56_S4880x56_1_0_0_1_n_n_wf : DotDims.WF S4880x4880 S4880x56 S4880x56 [1] [0] [0] [1] [] []
  dot_S4880x56_S56x32_S4880x32_1_0_0_1_n_n_wf : DotDims.WF S4880x56 S56x32 S4880x32 [1] [0] [0] [1] [] []

variable [Facts₀]

def gather_S128x28_S4880x1_S4880x28_1_0_n_n_0_1_128 : GatherDims S128x28 S4880x1 S4880x28 where
  offsetDims := [1]
  collapsedSliceDims := [0]
  operandBatchingDims := []
  startIndicesBatchingDims := []
  startIndexMap := [0]
  indexVectorDim := 1
  sliceSizes := ![1, 28]
  wf := gather_S128x28_S4880x1_S4880x28_1_0_n_n_0_1_128_wf
def gather_S4880x28_S4880x1_S4880x28_1_0_n_n_0_1_128 : GatherDims S4880x28 S4880x1 S4880x28 where
  offsetDims := [1]
  collapsedSliceDims := [0]
  operandBatchingDims := []
  startIndicesBatchingDims := []
  startIndexMap := [0]
  indexVectorDim := 1
  sliceSizes := ![1, 28]
  wf := gather_S4880x28_S4880x1_S4880x28_1_0_n_n_0_1_128_wf
def dot_S4880x4880_S4880x56_S4880x56_1_0_0_1_n_n : DotDims S4880x4880 S4880x56 S4880x56 where
  lhsContracting := [1]
  rhsContracting := [0]
  lhsNonContracting := [0]
  rhsNonContracting := [1]
  lhsBatch := []
  rhsBatch := []
  wf := dot_S4880x4880_S4880x56_S4880x56_1_0_0_1_n_n_wf
def dot_S4880x56_S56x32_S4880x32_1_0_0_1_n_n : DotDims S4880x56 S56x32 S4880x32 where
  lhsContracting := [1]
  rhsContracting := [0]
  lhsNonContracting := [0]
  rhsNonContracting := [1]
  lhsBatch := []
  rhsBatch := []
  wf := dot_S4880x56_S56x32_S4880x32_1_0_0_1_n_n_wf

class Facts : Prop extends Facts₀ where

variable [Facts]
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.FusedDot.lean ====
/-
  One matrix product against two matrices laid side by side.

  Write `A · B` for the product of an `M × K` matrix with a `K × N` one on the extended reals, entry `(p, q)`
  being `Σₜ A[p, t] · B[t, q]`. If `B₁` and `B₂` both have 56 columns and `[B₁ | B₂]` is the matrix with `B₁` in
  columns 0 … 55 and `B₂` in columns 56 … 111, then the left 56 columns of `A · [B₁ | B₂]` are `A · B₁` and the
  right 56 are `A · B₂`: entry `(p, q)` of the wide product only ever reads column `q` of the wide matrix, and
  that column is a column of `B₁` or of `B₂`. No law of arithmetic is used, so nothing has to be finite.
  The host's `dot_general` with these dimension numbers is that product.
-/
import Idealize.ShloMosaic.PureOps.Ideal.Laws
import Idealize.ShloMosaic.Lib.ValueIdx
import Idealize.ShloMosaic.Lib.Pipeline.Value
import proofs.«117390_j6811818131656_1_alg».proof.Proof.LibPlainDot
import proofs.«117390_j6811818131656_1_alg».proof.Proof.LibMatrixReads

noncomputable section

open scoped BigOperators

namespace Cert.FusedDot

open Idealize.ShloMosaic Idealize.ShloMosaic.ValueIdx

/-- The product of an `M × K` matrix with a `K × N` matrix on the extended reals. -/
def prod (M K N : Nat) (A : FVec Ideal ⟨2, ![M, K]⟩ .f32) (B : FVec Ideal ⟨2, ![K, N]⟩ .f32) :
    FVec Ideal ⟨2, ![M, N]⟩ .f32 :=
  fun j => ∑ t : Fin K, A (ix2 (j 0) t) * B (ix2 t (j 1))

theorem prod_apply (M K N : Nat) (A : FVec Ideal ⟨2, ![M, K]⟩ .f32) (B : FVec Ideal ⟨2, ![K, N]⟩ .f32)
    (p : Fin M) (q : Fin N) : prod M K N A B (ix2 p q) = ∑ t : Fin K, A (ix2 p t) * B (ix2 t q) := rfl

/-- The host's `dot_general`, left columns against right rows, is the product. -/
theorem hostDot_eq (M K N : Nat) (A : FVec Ideal ⟨2, ![M, K]⟩ .f32) (B : FVec Ideal ⟨2, ![K, N]⟩ .f32) :
    Host.dotGeneral (DotDims.plain M K N) none A B = prod M K N A B := by
  funext j
  obtain ⟨p, q, rfl⟩ : ∃ (p : Fin M) (q : Fin N), j = ix2 p q := ⟨j 0, j 1, eq_ix2 j⟩
  rw [prod_apply]
  show FloatOps.dotGeneral (DotDims.plain M K N) none .single A B (ix2 p q) = _
  rw [Ideal.dotGeneral_apply, ← Equiv.sum_comp (contrEquiv1 (DotDims.plain M K N) K rfl rfl).symm]
  refine Finset.sum_congr rfl fun t _ => ?_
  rw [PlainDot.lhsIdx_eq, PlainDot.rhsIdx_eq]

/-- The left 56 columns of `A · [B₁ | B₂]` are `A · B₁`. -/
theorem left_cols (A : FVec Ideal ⟨2, ![4880, 4880]⟩ .f32) (B₁ B₂ : FVec Ideal ⟨2, ![4880, 56]⟩ .f32)
    (hc : Shape.Concatenates [(⟨2, ![4880, 56]⟩ : Shape), ⟨2, ![4880, 56]⟩] ⟨2, ![4880, 112]⟩ 1)
    (hs : (⟨2, ![4880, 112]⟩ : Shape).Slices ![0, 0] ⟨2, ![4880, 56]⟩) :
    extractStridedSlice ⟨2, ![4880, 56]⟩ ![0, 0]
        (prod 4880 4880 112 A (concatenate ⟨2, ![4880, 112]⟩ 1 [⟨⟨2, ![4880, 56]⟩, B₁⟩, ⟨⟨2, ![4880, 56]⟩, B₂⟩] hc)) hs
      = prod 4880 4880 56 A B₁ := by
  funext j
  obtain ⟨p, q, rfl⟩ : ∃ (p : Fin 4880) (q : Fin 56), j = ix2 p q := ⟨j 0, j 1, eq_ix2 j⟩
  have hq : q.val + 0 < 112 := by have := q.isLt; omega
  rw [MatrixReads.colSlice_apply 4880 112 56 0 _ hs p q hq, prod_apply, prod_apply]
  refine Finset.sum_congr rfl fun t _ => congrArg (A (ix2 p t) * ·) ?_
  refine concatenate_pair_apply_left (t := ⟨2, ![4880, 112]⟩) (1 : Fin 2) B₁ B₂ hc (ix2 t (⟨q.val + 0, hq⟩ : Fin 112)) rfl (ix2 t q) fun b => ?_
  match b with
  | ⟨0, _⟩ => rfl
  | ⟨1, _⟩ => rfl

/-- The right 56 columns of `A · [B₁ | B₂]` are `A · B₂`. -/
theorem right_cols (A : FVec Ideal ⟨2, ![4880, 4880]⟩ .f32) (B₁ B₂ : FVec Ideal ⟨2, ![4880, 56]⟩ .f32)
    (hc : Shape.Concatenates [(⟨2, ![4880, 56]⟩ : Shape), ⟨2, ![4880, 56]⟩] ⟨2, ![4880, 112]⟩ 1)
    (hs : (⟨2, ![4880, 112]⟩ : Shape).Slices ![0, 56] ⟨2, ![4880, 56]⟩) :
    extractStridedSlice ⟨2, ![4880, 56]⟩ ![0, 56]
        (prod 4880 4880 112 A (concatenate ⟨2, ![4880, 112]⟩ 1 [⟨⟨2, ![4880, 56]⟩, B₁⟩, ⟨⟨2, ![4880, 56]⟩, B₂⟩] hc)) hs
      = prod 4880 4880 56 A B₂ := by
  funext j
  obtain ⟨p, q, rfl⟩ : ∃ (p : Fin 4880) (q : Fin 56), j = ix2 p q := ⟨j 0, j 1, eq_ix2 j⟩
  have hq : q.val + 56 < 112 := by have := q.isLt; omega
  rw [MatrixReads.colSlice_apply 4880 112 56 56 _ hs p q hq, prod_apply, prod_apply]
  refine Finset.sum_congr rfl fun t _ => congrArg (A (ix2 p t) * ·) ?_
  refine concatenate_pair_apply_right (t := ⟨2, ![4880, 112]⟩) (1 : Fin 2) B₁ B₂ hc (ix2 t (⟨q.val + 56, hq⟩ : Fin 112)) rfl rfl (ix2 t q) (fun b hb => ?_) (by show q.val + 56 = q.val + 56; rfl)
  match b, hb with
  | ⟨0, _⟩, _ => rfl
  | ⟨1, _⟩, hb => exact absurd rfl hb

end Cert.FusedDot

end
-- ==== Proof.KernelBlocks.lean ====
/-
  What the kernel region leaves in its result array.

  The region walks ten grid points. At point `t` it loads rows `488·t … 488·t + 487` of the 4880 × 4880 matrix `A`
  (all 4880 columns), loads the whole 4880 × 112 matrix `X`, multiplies them into an accumulator of zeros and
  writes the 488 × 112 result to rows `488·t … 488·t + 487` of the result array. On the extended reals a change
  of float format is the identity and the accumulator contributes `0`, so entry `(p, q)` of the block written at
  point `t` is `Σₖ A[488·t + p, k] · X[k, q]`: the block is the restriction of the one product `A · X` to its
  rows. The ten row blocks tile the array (row `r` is in block `r / 488`), so after the run the array is `A · X`.
-/
import proofs.«117390_j6811818131656_1_alg».proof.Proof.Gen.KernelIdeal.Frame
import proofs.«117390_j6811818131656_1_alg».proof.Proof.LibPlainDot
import proofs.«117390_j6811818131656_1_alg».proof.Proof.FusedDot
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- The body's stored value at row `p` and column `q` of its block: the sum over the 4880 contracted positions. -/
theorem pay_apply (x0 : Vec Ideal S488x4880 .f32) (x1 : Vec Ideal S4880x112 .f32) (p : Fin 488) (q : Fin 112) :
    k0_pay1 x0 x1 (ix2 p q) = ∑ k : Fin 4880, x0 (ix2 p k) * x1 (ix2 k q) := by
  unfold k0_pay1
  refine (PlainDot.matmul_zero_apply 488 4880 112 none _ _ p q).trans ?_
  refine Finset.sum_congr rfl fun k _ => ?_
  rw [truncf_apply, truncf_apply, shapeCast_self]

theorem hz : (![0, 0] : Fin 2 → Nat) = fun _ => 0 := funext fun a => by fin_cases a <;> rfl

/-- The printed index maps over the ten points: the matrix's row block moves with the result's, every column
    block index is 0, and the second operand is always its one whole block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block index 0 … 9 is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- WHAT POINT `t` WRITES BACK is block `t` of the product of the two arrays as the region finds them. -/
theorem flushed_eq (c : Dev nD) (t : Fin cfg0.N) :
    (dats m 0 c).flushed 2 t
      = ((cfg0.win 2).blk t).view.read (Elt Ideal) (FusedDot.prod 4880 4880 112 (V m c main_arg6) (V m c main_v28)) := by
  show (cfg0.win 2).cut (grid0.coords t) ((dats m 0 c).after 2 t) = _
  rw [after0_2]
  unfold out0_2
  rw [View.canon_unit_zero hz]
  simp only [View.ld_unit_zero (S := S488x4880) hz, View.ld_unit_zero (S := S4880x112) hz]
  obtain ⟨e0, e1, e2, e3, e4, e5⟩ := idx_facts t
  refine funext fun (j : S488x112.Idx) => ?_
  obtain ⟨p, q, rfl⟩ : ∃ (p : Fin 488) (q : Fin 112), j = ix2 p q := ⟨j 0, j 1, eq_ix2 j⟩
  show k0_pay1 (iblk m c 0 t) (iblk m c 1 t) (ix2 p q)
    = FusedDot.prod 4880 4880 112 (V m c main_arg6) (V m c main_v28) (((cfg0.win 2).blk t).view.emb (ix2 p q))
  refine (pay_apply (iblk m c 0 t) (iblk m c 1 t) p q).trans ?_
  refine Finset.sum_congr rfl fun k _ => ?_
  have h0 : iblk m c 0 t (ix2 p k)
      = V m c main_arg6 (ix2 ((((cfg0.win 2).blk t).view.emb (ix2 p q)) 0) k) := by
    show V m c main_arg6 (((cfg0.win 0).blk t).view.emb (ix2 p k)) = _
    refine congrArg (V m c main_arg6) (funext fun a => Fin.ext ?_)
    match a with
    | ⟨0, _⟩ => show win0_0.index t (0 : Fin 2) * 488 + 1 * p.val = win0_2.index t (0 : Fin 2) * 488 + 1 * p.val; omega
    | ⟨1, _⟩ => show win0_0.index t (1 : Fin 2) * 4880 + 1 * k.val = k.val; omega
  have h1 : iblk m c 1 t (ix2 k q)
      = V m c main_v28 (ix2 k ((((cfg0.win 2).blk t).view.emb (ix2 p q)) 1)) := by
    show V m c main_v28 (((cfg0.win 1).blk t).view.emb (ix2 k q)) = _
    refine congrArg (V m c main_v28) (funext fun a => Fin.ext ?_)
    match a with
    | ⟨0, _⟩ => show win0_1.index t (0 : Fin 2) * 4880 + 1 * k.val = k.val; omega
    | ⟨1, _⟩ => show win0_1.index t (1 : Fin 2) * 112 + 1 * q.val = win0_2.index t (1 : Fin 2) * 112 + 1 * q.val; omega
  rw [h0, h1]

/-- An index of the result array is in point `t`'s block iff each coordinate is in the block's range on its axis. -/
theorem mem_blk (t : Fin cfg0.N) (i : S4880x112.Idx) :
    i ∈ ((cfg0.win 2).blk t).view.set ↔ ∀ a : Fin 2, win0_2.index t a * S488x112.size a ≤ (i a).val
      ∧ (i a).val < win0_2.index t a * S488x112.size a + S488x112.size a := by
  show i ∈ ((View.whole main_v29).slice (win0_2.rect t)).set ↔ _
  rw [View.set_slice_whole, Rect.mem_set_unit]
  exact Iff.rfl

/-- The ten row blocks tile the result array: row `r` lies in block `r / 488`. -/
theorem cover (i : S4880x112.Idx) :
    ∃ t : Fin cfg0.N, (cfg0.win 2).flush t = true ∧ i ∈ ((cfg0.win 2).blk t).view.set := by
  have hi0 : (i 0).val < 4880 := (i 0).isLt
  have hi1 : (i 1).val < 112 := (i 1).isLt
  obtain ⟨t, ht⟩ := idx_onto ⟨(i 0).val / 488, by omega⟩
  have q0 : win0_2.index t (0 : Fin 2) = (i 0).val / 488 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 488 ≤ (i 0).val ∧ (i 0).val < win0_2.index t (0 : Fin 2) * 488 + 488
    omega
  | ⟨1, _⟩ =>
    show win0_2.index t (1 : Fin 2) * 112 ≤ (i 1).val ∧ (i 1).val < win0_2.index t (1 : Fin 2) * 112 + 112
    omega

/-- THE RESULT ARRAY after the run is the product of the matrix with the host-built operand. -/
theorem final (c : Dev nD) :
    (dats m 0 c).arrAt 2 cfg0.N = FusedDot.prod 4880 4880 112 (V m c main_arg6) (V m c main_v28) :=
  (dats m 0 c).arrAt_eq_of_cover 2 _ (fun t _ => flushed_eq m c t) cover

end Cert.KernelIdeal.Blocks

end
-- ==== Proof.Layer.lean ====
/-
  The pieces both programs share, named once.

  Both programs first build, from the two indicator vectors `u` (centre) and `v` (neighbour), the two embedding
  tables, the category table and the category indices, the same two 4880 × 56 matrices

    centre    = [ u ⊙ C  |  u ⊙ T[idx] ]
    neighbour = [ v ⊙ N  |  v ⊙ (u ⊙ u ⊙ T[idx])[idx'] ]

  (`⊙` scales row `r` by the vector's entry `r`; `idx` and `idx'` are the category indices wrapped once when
  negative, by 128 and by 4880), and both end with the same layer applied twice,

    out(base, s, P, Q) = leaky( (base + s ⊙ P + s ⊙ Q) · W + b ),   leaky(z) = z where z ≥ 0, else 0.01 · z.

  They differ only in how `P` and `Q`, the products of the 4880 × 4880 matrix with the two matrices above, are
  obtained. These definitions are the operations as both programs print them, so each program's result is one of
  them by unfolding, and nothing below them is ever opened.
-/
import proofs.«117390_j6811818131656_1_alg».proof.KernelIdeal
import proofs.«117390_j6811818131656_1_alg».proof.Proof.Gen.KernelIdeal

noncomputable section

namespace Cert.Layer

open Idealize.ShloMosaic Cert.KernelIdeal Cert.KernelIdeal.Facts₀ Cert.KernelIdeal.Facts

variable {F : FTy → Type} [FloatOps F]

/-- A vector as a column. -/
def col (a : (⟨S4880, .f32⟩ : BufTy).Contents (Elt F)) : (⟨S4880x1, .f32⟩ : BufTy).Contents (Elt F) :=
  broadcastInDim S4880x1 ![0] bcast_S4880_S4880x1_0 a

/-- A column repeated across 28 columns. -/
def across28 (x : (⟨S4880x1, .f32⟩ : BufTy).Contents (Elt F)) : (⟨S4880x28, .f32⟩ : BufTy).Contents (Elt F) :=
  broadcastInDim S4880x28 ![0, 1] bcast_S4880x1_S4880x28_0_1 x

/-- A column repeated across 56 columns. -/
def across56 (x : (⟨S4880x1, .f32⟩ : BufTy).Contents (Elt F)) : (⟨S4880x56, .f32⟩ : BufTy).Contents (Elt F) :=
  broadcastInDim S4880x56 ![0, 1] bcast_S4880x1_S4880x56_0_1 x

/-- The index vector with `n` added where it is negative, as a column. -/
def wrapped (n : BitVec 32) (idx : (⟨S4880, .i32⟩ : BufTy).Contents (Elt F)) : (⟨S4880x1, .i32⟩ : BufTy).Contents (Elt F) :=
  (broadcastInDim S4880x1 ![0] bcast_S4880_S4880x1_0 : (⟨S4880, .i32⟩ : BufTy).Contents (Elt F) → (⟨S4880x1, .i32⟩ : BufTy).Contents (Elt F))
    ((select : (⟨S4880, .i1⟩ : BufTy).Contents (Elt F) → (⟨S4880, .i32⟩ : BufTy).Contents (Elt F) → (⟨S4880, .i32⟩ : BufTy).Contents (Elt F) → (⟨S4880, .i32⟩ : BufTy).Contents (Elt F))
      ((cmpi .slt : (⟨S4880, .i32⟩ : BufTy).Contents (Elt F) → (⟨S4880, .i32⟩ : BufTy).Contents (Elt F) → (⟨S4880, .i1⟩ : BufTy).Contents (Elt F)) idx
        ((broadcastInDim S4880 ![] bcast_S_S4880 : (⟨S_, .i32⟩ : BufTy).Contents (Elt F) → (⟨S4880, .i32⟩ : BufTy).Contents (Elt F)) (constantI S_ 32 0#32)))
      ((addi : (⟨S4880, .i32⟩ : BufTy).Contents (Elt F) → (⟨S4880, .i32⟩ : BufTy).Contents (Elt F) → (⟨S4880, .i32⟩ : BufTy).Contents (Elt F)) idx
        ((broadcastInDim S4880 ![] bcast_S_S4880 : (⟨S_, .i32⟩ : BufTy).Contents (Elt F) → (⟨S4880, .i32⟩ : BufTy).Contents (Elt F)) (constantI S_ 32 n)))
      idx)

/-- `u ⊙ T[idx]`: the category rows, scaled by the centre indicator. -/
def catRows (u : (⟨S4880, .f32⟩ : BufTy).Contents (Elt F)) (tbl : (⟨S128x28, .f32⟩ : BufTy).Contents (Elt F))
    (idx : (⟨S4880, .i32⟩ : BufTy).Contents (Elt F)) : (⟨S4880x28, .f32⟩ : BufTy).Contents (Elt F) :=
  mulf (across28 (col u)) (Host.gather gather_S128x28_S4880x1_S4880x28_1_0_n_n_0_1_128 tbl (wrapped (F := F) 128#32 idx))

/-- `[ u ⊙ C | u ⊙ T[idx] ]`. -/
def centre (u : (⟨S4880, .f32⟩ : BufTy).Contents (Elt F)) (C : (⟨S4880x28, .f32⟩ : BufTy).Contents (Elt F))
    (tbl : (⟨S128x28, .f32⟩ : BufTy).Contents (Elt F)) (idx : (⟨S4880, .i32⟩ : BufTy).Contents (Elt F)) :
    (⟨S4880x56, .f32⟩ : BufTy).Contents (Elt F) :=
  concatenate S4880x56 1 [⟨S4880x28, mulf (across28 (col u)) C⟩, ⟨S4880x28, catRows u tbl idx⟩] concatenates_S4880x28_S4880x28_S4880x56_d1

/-- `[ v ⊙ N | v ⊙ (u ⊙ u ⊙ T[idx])[idx'] ]`. -/
def neighbour (u v : (⟨S4880, .f32⟩ : BufTy).Contents (Elt F)) (N : (⟨S4880x28, .f32⟩ : BufTy).Contents (Elt F))
    (tbl : (⟨S128x28, .f32⟩ : BufTy).Contents (Elt F)) (idx : (⟨S4880, .i32⟩ : BufTy).Contents (Elt F)) :
    (⟨S4880x56, .f32⟩ : BufTy).Contents (Elt F) :=
  concatenate S4880x56 1 [⟨S4880x28, mulf (across28 (col v)) N⟩,
    ⟨S4880x28, mulf (across28 (col v)) (Host.gather gather_S4880x28_S4880x1_S4880x28_1_0_n_n_0_1_128
      (mulf (across28 (col u)) (catRows u tbl idx)) (wrapped (F := F) 4880#32 idx))⟩] concatenates_S4880x28_S4880x28_S4880x56_d1

/-- Two 56-column matrices side by side. -/
def sideBySide (x y : (⟨S4880x56, .f32⟩ : BufTy).Contents (Elt F)) : (⟨S4880x112, .f32⟩ : BufTy).Contents (Elt F) :=
  concatenate S4880x112 1 [⟨S4880x56, x⟩, ⟨S4880x56, y⟩] concatenates_S4880x56_S4880x56_S4880x112_d1

/-- `(base + s ⊙ P + s ⊙ Q) · W + b`. -/
def affine (base : (⟨S4880x56, .f32⟩ : BufTy).Contents (Elt F)) (s : (⟨S4880x1, .f32⟩ : BufTy).Contents (Elt F))
    (P Q : (⟨S4880x56, .f32⟩ : BufTy).Contents (Elt F)) (W : (⟨S56x32, .f32⟩ : BufTy).Contents (Elt F))
    (b : (⟨S32, .f32⟩ : BufTy).Contents (Elt F)) : (⟨S4880x32, .f32⟩ : BufTy).Contents (Elt F) :=
  addf (Host.dotGeneral dot_S4880x56_S56x32_S4880x32_1_0_0_1_n_n none (addf (addf base (mulf (across56 s) P)) (mulf (across56 s) Q)) W)
    (broadcastInDim S4880x32 ![0, 1] bcast_S1x32_S4880x32_0_1 (broadcastInDim S1x32 ![1] bcast_S32_S1x32_1 b))

/-- `z` where `z ≥ 0`, else `0.01 · z` (the slope is the float nearest one hundredth). -/
def leaky (z : (⟨S4880x32, .f32⟩ : BufTy).Contents (Elt F)) : (⟨S4880x32, .f32⟩ : BufTy).Contents (Elt F) :=
  select (cmpf .oge z (broadcastInDim S4880x32 ![] bcast_S_S4880x32 (constant (F := F) S_ .f32 0x00000000#32))) z
    (mulf (broadcastInDim S4880x32 ![] bcast_S_S4880x32 (id (constant (F := F) S_ .f32 0x3C23D70A#32))) z)

/-- One output of the layer. -/
def out (base : (⟨S4880x56, .f32⟩ : BufTy).Contents (Elt F)) (s : (⟨S4880x1, .f32⟩ : BufTy).Contents (Elt F))
    (P Q : (⟨S4880x56, .f32⟩ : BufTy).Contents (Elt F)) (W : (⟨S56x32, .f32⟩ : BufTy).Contents (Elt F))
    (b : (⟨S32, .f32⟩ : BufTy).Contents (Elt F)) : (⟨S4880x32, .f32⟩ : BufTy).Contents (Elt F) :=
  leaky (affine base s P Q W b)

end Cert.Layer

end
-- ==== Proof.HostFold.lean ====
/-
  Two small facts about host lines.

  Laying two pieces along an axis depends only on the pieces, so an equation between two such arrays follows from
  the two equations between their pieces. And the contents after two lines run one after the other are the
  second line's result over the first's.
-/
import Idealize.ShloMosaic.Lib.StableHlo.Run
import Idealize.ShloMosaic.Lib.Pipeline.Value

noncomputable section

namespace Cert.HostFold

open Idealize.ShloMosaic Idealize.ShloMosaic.StableHlo

/-- Two pieces laid along an axis depend only on the pieces. -/
theorem concat2_congr {α : Type} {t s₁ s₂ : Shape} (ax : Fin t.rank) (h : Shape.Concatenates [s₁, s₂] t ax)
    {a a' : s₁.Idx → α} {b b' : s₂.Idx → α} (ha : a = a') (hb : b = b') :
    concatenate t ax [⟨s₁, a⟩, ⟨s₂, b⟩] h = concatenate t ax [⟨s₁, a'⟩, ⟨s₂, b'⟩] h := by
  subst ha; subst hb; rfl

/-- A fold over two lines run one after the other is the second's fold over the first's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih _

end Cert.HostFold

end
-- ==== Proof.KernelHost.lean ====
/-
  The kernel program's host operations, read back.

  Before the region the program builds, by 33 host operations, the two indicator columns, the centre and neighbour
  matrices and the two of them side by side (the region's second operand). After the region it slices the region's
  result into its left and right 56 columns and applies the shared layer twice, the second time with the two slices
  exchanged. Each buffer after a stretch of host operations is the composition of the operations that lead to it,
  whatever the buffers held before: the statements below are over an arbitrary valuation. An array laid out of two
  pieces is read piece by piece.
-/
import proofs.«117390_j6811818131656_1_alg».proof.Proof.Gen.KernelIdeal.Frame
import proofs.«117390_j6811818131656_1_alg».proof.Proof.Layer
import proofs.«117390_j6811818131656_1_alg».proof.Proof.HostFold
import Idealize.ShloMosaic.Lib.StableHlo.Run

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]

/-! ## Before the region -/

theorem head_v0 (W : Valuation τ sig (Elt F)) :
    after hostOps0 W (Proc.devRef .tc main_v0) = Layer.col (W (Proc.devRef .tc main_arg0)) := by
  unfold Layer.col
  after_results_simp
  all_goals rfl

theorem head_v1 (W : Valuation τ sig (Elt F)) :
    after hostOps0 W (Proc.devRef .tc main_v1) = Layer.col (W (Proc.devRef .tc main_arg1)) := by
  unfold Layer.col
  after_results_simp
  all_goals rfl

theorem head_v15 (W : Valuation τ sig (Elt F)) :
    after hostOps0 W (Proc.devRef .tc main_v15)
      = Layer.centre (W (Proc.devRef .tc main_arg0)) (W (Proc.devRef .tc main_arg2)) (W (Proc.devRef .tc main_arg4))
          (W (Proc.devRef .tc main_arg5)) := by
  unfold Layer.centre Layer.catRows Layer.across28 Layer.col Layer.wrapped
  after_results_simp
  refine HostFold.concat2_congr _ _ ?_ ?_
  · after_results_simp
    all_goals rfl
  · after_results_simp
    all_goals rfl

theorem head_v27 (W : Valuation τ sig (Elt F)) :
    after hostOps0 W (Proc.devRef .tc main_v27)
      = Layer.neighbour (W (Proc.devRef .tc main_arg0)) (W (Proc.devRef .tc main_arg1)) (W (Proc.devRef .tc main_arg3))
          (W (Proc.devRef .tc main_arg4)) (W (Proc.devRef .tc main_arg5)) := by
  unfold Layer.neighbour Layer.catRows Layer.across28 Layer.col Layer.wrapped
  after_results_simp
  refine HostFold.concat2_congr _ _ ?_ ?_
  · after_results_simp
    all_goals rfl
  · after_results_simp
    all_goals rfl

/-- The region's second operand is the centre and neighbour matrices side by side. -/
theorem head_v28 (W : Valuation τ sig (Elt F)) :
    after hostOps0 W (Proc.devRef .tc main_v28)
      = Layer.sideBySide
          (Layer.centre (W (Proc.devRef .tc main_arg0)) (W (Proc.devRef .tc main_arg2)) (W (Proc.devRef .tc main_arg4))
            (W (Proc.devRef .tc main_arg5)))
          (Layer.neighbour (W (Proc.devRef .tc main_arg0)) (W (Proc.devRef .tc main_arg1)) (W (Proc.devRef .tc main_arg3))
            (W (Proc.devRef .tc main_arg4)) (W (Proc.devRef .tc main_arg5))) := by
  unfold Layer.sideBySide Layer.centre Layer.neighbour Layer.catRows Layer.across28 Layer.col Layer.wrapped
  after_results_simp
  refine HostFold.concat2_congr _ _ ?_ ?_
  · after_results_simp
    refine HostFold.concat2_congr _ _ ?_ ?_
    · after_results_simp
      all_goals rfl
    · after_results_simp
      all_goals rfl
  · after_results_simp
    refine HostFold.concat2_congr _ _ ?_ ?_
    · after_results_simp
      all_goals rfl
    · after_results_simp
      all_goals rfl

/-! ## After the region -/

/-- The first result: the layer on the centre matrix, the left slice and the right slice. -/
theorem tail_v46 (W : Valuation τ sig (Elt F)) :
    after (List.flatten [hostOps1, hostOps1_1, hostOps1_2, hostOps1_3]) W (Proc.devRef .tc main_v46)
      = Layer.out (W (Proc.devRef .tc main_v15)) (W (Proc.devRef .tc main_v0))
          (extractStridedSlice S4880x56 ![0, 0] (W (Proc.devRef .tc main_v29)) slices_S4880x112_S4880x56_0_0)
          (extractStridedSlice S4880x56 ![0, 56] (W (Proc.devRef .tc main_v29)) slices_S4880x112_S4880x56_0_56)
          (W (Proc.devRef .tc main_arg7)) (W (Proc.devRef .tc main_arg8)) := by
  unfold Layer.out Layer.leaky Layer.affine Layer.across56
  simp only [hostOps1, hostOps1_1, hostOps1_2, hostOps1_3, List.flatten_cons, List.flatten_nil, List.append_nil,
    List.cons_append, List.nil_append]
  after_results_simp
  all_goals rfl

/-- The second result: the layer on the neighbour matrix, the right slice and the left slice. -/
theorem tail_v53 (W : Valuation τ sig (Elt F)) :
    after (List.flatten [hostOps1, hostOps1_1, hostOps1_2, hostOps1_3]) W (Proc.devRef .tc main_v53)
      = Layer.out (W (Proc.devRef .tc main_v27)) (W (Proc.devRef .tc main_v1))
          (extractStridedSlice S4880x56 ![0, 56] (W (Proc.devRef .tc main_v29)) slices_S4880x112_S4880x56_0_56)
          (extractStridedSlice S4880x56 ![0, 0] (W (Proc.devRef .tc main_v29)) slices_S4880x112_S4880x56_0_0)
          (W (Proc.devRef .tc main_arg7)) (W (Proc.devRef .tc main_arg8)) := by
  unfold Layer.out Layer.leaky Layer.affine Layer.across56
  simp only [hostOps1, hostOps1_1, hostOps1_2, hostOps1_3, List.flatten_cons, List.flatten_nil, List.append_nil,
    List.cons_append, List.nil_append]
  after_results_simp
  all_goals rfl

end Cert.KernelIdeal.HostSide

end
-- ==== Proof.Results.lean ====
/-
  The two results as functions of the nine argument arrays.

  With `centre` and `neighbour` the two 4880 × 56 matrices both programs build and `A` the 4880 × 4880 matrix,

    result0 = out(centre,    u, A · centre,    A · neighbour)
    result1 = out(neighbour, v, A · neighbour, A · centre)

  on the extended reals, `A · B` the matrix product entry by entry.
-/
import proofs.«117390_j6811818131656_1_alg».proof.Proof.Layer
import proofs.«117390_j6811818131656_1_alg».proof.Proof.FusedDot

noncomputable section

namespace Cert.Layer

open Idealize.ShloMosaic Cert.KernelIdeal

/-- The first result. -/
def result0 (u v : (⟨S4880, .f32⟩ : BufTy).Contents (Elt Ideal)) (C N : (⟨S4880x28, .f32⟩ : BufTy).Contents (Elt Ideal))
    (tbl : (⟨S128x28, .f32⟩ : BufTy).Contents (Elt Ideal)) (idx : (⟨S4880, .i32⟩ : BufTy).Contents (Elt Ideal))
    (A : (⟨S4880x4880, .f32⟩ : BufTy).Contents (Elt Ideal)) (W : (⟨S56x32, .f32⟩ : BufTy).Contents (Elt Ideal))
    (b : (⟨S32, .f32⟩ : BufTy).Contents (Elt Ideal)) : (⟨S4880x32, .f32⟩ : BufTy).Contents (Elt Ideal) :=
  out (centre u C tbl idx) (col u) (FusedDot.prod 4880 4880 56 A (centre u C tbl idx))
    (FusedDot.prod 4880 4880 56 A (neighbour u v N tbl idx)) W b

/-- The second result. -/
def result1 (u v : (⟨S4880, .f32⟩ : BufTy).Contents (Elt Ideal)) (C N : (⟨S4880x28, .f32⟩ : BufTy).Contents (Elt Ideal))
    (tbl : (⟨S128x28, .f32⟩ : BufTy).Contents (Elt Ideal)) (idx : (⟨S4880, .i32⟩ : BufTy).Contents (Elt Ideal))
    (A : (⟨S4880x4880, .f32⟩ : BufTy).Contents (Elt Ideal)) (W : (⟨S56x32, .f32⟩ : BufTy).Contents (Elt Ideal))
    (b : (⟨S32, .f32⟩ : BufTy).Contents (Elt Ideal)) : (⟨S4880x32, .f32⟩ : BufTy).Contents (Elt Ideal) :=
  out (neighbour u v N tbl idx) (col v) (FusedDot.prod 4880 4880 56 A (neighbour u v N tbl idx))
    (FusedDot.prod 4880 4880 56 A (centre u C tbl idx)) W b

end Cert.Layer

end
-- ==== Proof.KernelValue.lean ====
/-
  The kernel program's run with its two results named.

  The region leaves the product `A · [centre | neighbour]` in its result array (the blocks module); the host lines
  after it read the left and right 56 columns, which are `A · centre` and `A · neighbour` (one product against two
  matrices side by side), and apply the shared layer. So the program's two results are `result0` and `result1` of
  the argument arrays as launched, and no argument array is written.
-/
import proofs.«117390_j6811818131656_1_alg».proof.Proof.KernelBlocks
import proofs.«117390_j6811818131656_1_alg».proof.Proof.KernelHost
import proofs.«117390_j6811818131656_1_alg».proof.Proof.Results

noncomputable section

namespace Cert.KernelIdeal.ValueRun

open Idealize.ShloMosaic Idealize.ShloMosaic.TcCoe Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The centre matrix of the launch contents. -/
abbrev cen (c : Dev nD) : (⟨S4880x56, .f32⟩ : BufTy).Contents (Elt Ideal) :=
  Layer.centre (m ((c : Thread nD τ).loc main_arg0)) (m ((c : Thread nD τ).loc main_arg2)) (m ((c : Thread nD τ).loc main_arg4))
    (m ((c : Thread nD τ).loc main_arg5))

/-- The neighbour matrix of the launch contents. -/
abbrev nei (c : Dev nD) : (⟨S4880x56, .f32⟩ : BufTy).Contents (Elt Ideal) :=
  Layer.neighbour (m ((c : Thread nD τ).loc main_arg0)) (m ((c : Thread nD τ).loc main_arg1)) (m ((c : Thread nD τ).loc main_arg3))
    (m ((c : Thread nD τ).loc main_arg4)) (m ((c : Thread nD τ).loc main_arg5))

/-- The buffers as the lines after the region find them: the region's arrays as the region left them, the rest as
    the lines before the region left them. -/
abbrev WA (c : Dev nD) : Valuation τ sig (Elt Ideal) :=
  Pipeline.withArrays (cfgs 0).spec c (V0 m c) fun w => (dats m 0 c).arrAt w (cfgs 0).N

theorem V0_v0 (c : Dev nD) : V0 m c (Proc.devRef .tc main_v0) = Layer.col (m ((c : Thread nD τ).loc main_arg0)) :=
  HostSide.head_v0 _
theorem V0_v1 (c : Dev nD) : V0 m c (Proc.devRef .tc main_v1) = Layer.col (m ((c : Thread nD τ).loc main_arg1)) :=
  HostSide.head_v1 _
theorem V0_v15 (c : Dev nD) : V0 m c (Proc.devRef .tc main_v15) = cen m c := HostSide.head_v15 _
theorem V0_v27 (c : Dev nD) : V0 m c (Proc.devRef .tc main_v27) = nei m c := HostSide.head_v27 _
theorem V_v28 (c : Dev nD) : V m c main_v28 = Layer.sideBySide (cen m c) (nei m c) := HostSide.head_v28 _

theorem WA_v0 (c : Dev nD) : WA m c (Proc.devRef .tc main_v0) = Layer.col (m ((c : Thread nD τ).loc main_arg0)) :=
  (Pipeline.withArrays_of_ne spec0 c (V0 m c) _ main_v0 (by exact (by decide : ∀ w, Pipeline.arrRef spec0 w ≠ main_v0))).trans (V0_v0 m c)
theorem WA_v1 (c : Dev nD) : WA m c (Proc.devRef .tc main_v1) = Layer.col (m ((c : Thread nD τ).loc main_arg1)) :=
  (Pipeline.withArrays_of_ne spec0 c (V0 m c) _ main_v1 (by exact (by decide : ∀ w, Pipeline.arrRef spec0 w ≠ main_v1))).trans (V0_v1 m c)
theorem WA_v15 (c : Dev nD) : WA m c (Proc.devRef .tc main_v15) = cen m c :=
  (Pipeline.withArrays_of_ne spec0 c (V0 m c) _ main_v15 (by exact (by decide : ∀ w, Pipeline.arrRef spec0 w ≠ main_v15))).trans (V0_v15 m c)
theorem WA_v27 (c : Dev nD) : WA m c (Proc.devRef .tc main_v27) = nei m c :=
  (Pipeline.withArrays_of_ne spec0 c (V0 m c) _ main_v27 (by exact (by decide : ∀ w, Pipeline.arrRef spec0 w ≠ main_v27))).trans (V0_v27 m c)
theorem WA_arg7 (c : Dev nD) : WA m c (Proc.devRef .tc main_arg7) = m ((c : Thread nD τ).loc main_arg7) :=
  (Pipeline.withArrays_of_ne spec0 c (V0 m c) _ main_arg7 (by exact (by decide : ∀ w, Pipeline.arrRef spec0 w ≠ main_arg7))).trans (V_main_arg7 m c)
theorem WA_arg8 (c : Dev nD) : WA m c (Proc.devRef .tc main_arg8) = m ((c : Thread nD τ).loc main_arg8) :=
  (Pipeline.withArrays_of_ne spec0 c (V0 m c) _ main_arg8 (by exact (by decide : ∀ w, Pipeline.arrRef spec0 w ≠ main_arg8))).trans (V_main_arg8 m c)

/-- The region's result array as the later lines find it: the product with the two matrices side by side. -/
theorem WA_v29 (c : Dev nD) :
    WA m c (Proc.devRef .tc main_v29)
      = FusedDot.prod 4880 4880 112 (m ((c : Thread nD τ).loc main_arg6)) (Layer.sideBySide (cen m c) (nei m c)) := by
  refine (Pipeline.withArrays_arr spec0 launch0.win.arr_inj c (V0 m c) _ 2).trans ?_
  show (dats m 0 c).arrAt 2 cfg0.N = _
  rw [Blocks.final, V_main_arg6, V_v28]

/-- Its left 56 columns are the product with the centre matrix. -/
theorem left_slice (c : Dev nD) :
    extractStridedSlice S4880x56 ![0, 0] (WA m c (Proc.devRef .tc main_v29)) slices_S4880x112_S4880x56_0_0
      = FusedDot.prod 4880 4880 56 (m ((c : Thread nD τ).loc main_arg6)) (cen m c) := by
  rw [WA_v29]
  exact FusedDot.left_cols (m ((c : Thread nD τ).loc main_arg6)) (cen m c) (nei m c) _ _

/-- Its right 56 columns are the product with the neighbour matrix. -/
theorem right_slice (c : Dev nD) :
    extractStridedSlice S4880x56 ![0, 56] (WA m c (Proc.devRef .tc main_v29)) slices_S4880x112_S4880x56_0_56
      = FusedDot.prod 4880 4880 56 (m ((c : Thread nD τ).loc main_arg6)) (nei m c) := by
  rw [WA_v29]
  exact FusedDot.right_cols (m ((c : Thread nD τ).loc main_arg6)) (cen m c) (nei m c) _ _

/-- The first result buffer after the lines that follow the region. -/
theorem out0 (c : Dev nD) :
    Pipeline.afterTail₀ cfgs (dats m) 0 (V0 m) [hostOps1, hostOps1_1, hostOps1_2, hostOps1_3] c main_v46
      = Layer.result0 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  unfold Pipeline.afterTail₀
  refine (HostSide.tail_v46 (WA m c)).trans ?_
  rw [left_slice, right_slice, WA_v15, WA_v0, WA_arg7, WA_arg8]
  rfl

/-- The second result buffer. -/
theorem out1 (c : Dev nD) :
    Pipeline.afterTail₀ cfgs (dats m) 0 (V0 m) [hostOps1, hostOps1_1, hostOps1_2, hostOps1_3] c main_v53
      = Layer.result1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  unfold Pipeline.afterTail₀
  refine (HostSide.tail_v53 (WA m c)).trans ?_
  rw [left_slice, right_slice, WA_v27, WA_v1, WA_arg7, WA_arg8]
  rfl

/-- Every weakly fair execution of the kernel program terminates with its two results at `result0` and `result1` of
    the launch contents and the argument arrays unchanged. -/
theorem run : θ_run defs (onTc (τ := τ) (main (F := Ideal))) ⟨m, fun _ => 0, ρ⟩ fun r => ∀ c : Dev nD,
      r.2.mem ((c.tc : Thread nD τ).loc main_v46)
        = Layer.result0 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_v53)
        = Layer.result1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v46 (Pipeline.mem_restRefs_of main_v46 (by decide) (by decide))).trans (out0 m c),
      ((h c).2 main_v53 (Pipeline.mem_restRefs_of main_v53 (by decide) (by decide))).trans (out1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 0).trans (((dats m 0 c).arrAt_in 0 rfl _).trans ((A_eq m c 0).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.ValueRun

end
-- ==== Proof.RefRun.lean ====
/-
  The reference program's run, read back.

  The reference is a straight line of 71 host operations once its two calls of the leaky rectifier (each of which
  calls the element-wise choice) are written out at their call sites. Every weakly fair execution runs them in
  order, so each buffer ends at the composition of the operations that lead to it, applied to the argument arrays,
  and no operation writes an argument array. Read that way the two results are the shared layer (`Layer.out`)
  applied to the centre and neighbour matrices and to the two products of the 4880 × 4880 matrix with them, each
  computed by its own `dot_general`.
-/
import proofs.«117390_j6811818131656_1_alg».proof.ReferenceIdeal
import proofs.«117390_j6811818131656_1_alg».proof.Proof.Gen.ReferenceIdeal
import proofs.«117390_j6811818131656_1_alg».proof.Proof.Layer
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls written out over their buffer records. -/
abbrev ops : List (HloOp τ sig (Elt F)) :=
  [ unary main_arg0 main_v0 (broadcastInDim S4880x1 ![0] bcast_S4880_S4880x1_0),
    unary main_arg1 main_v1 (broadcastInDim S4880x1 ![0] bcast_S4880_S4880x1_0),
    unary main_v0 main_v2 (broadcastInDim S4880x28 ![0, 1] bcast_S4880x1_S4880x28_0_1),
    binary main_v2 main_arg2 main_v3 mulf,
    nullary main_c (constantI S_ 32 0#32),
    unary main_c main_v4 (broadcastInDim S4880 ![] bcast_S_S4880),
    binary main_arg5 main_v4 main_v5 (cmpi .slt),
    nullary main_c_0 (constantI S_ 32 128#32),
    unary main_c_0 main_v6 (broadcastInDim S4880 ![] bcast_S_S4880),
    binary main_arg5 main_v6 main_v7 addi,
    ternary main_v5 main_v7 main_arg5 main_v8 select,
    unary main_v8 main_v9 (broadcastInDim S4880x1 ![0] bcast_S4880_S4880x1_0),
    binary main_arg4 main_v9 main_v10 (fun x i => Host.gather gather_S128x28_S4880x1_S4880x28_1_0_n_n_0_1_128 x i),
    unary main_v0 main_v11 (broadcastInDim S4880x28 ![0, 1] bcast_S4880x1_S4880x28_0_1),
    binary main_v11 main_v10 main_v12 mulf,
    unary main_v0 main_v13 (broadcastInDim S4880x28 ![0, 1] bcast_S4880x1_S4880x28_0_1),
    binary main_v13 main_v12 main_v14 mulf,
    binary main_v3 main_v12 main_v15 (fun a b => concatenate S4880x56 1 [⟨S4880x28, a⟩, ⟨S4880x28, b⟩] concatenates_S4880x28_S4880x28_S4880x56_d1),
    unary main_v1 main_v16 (broadcastInDim S4880x28 ![0, 1] bcast_S4880x1_S4880x28_0_1),
    binary main_v16 main_arg3 main_v17 mulf,
    nullary main_c_1 (constantI S_ 32 0#32),
    unary main_c_1 main_v18 (broadcastInDim S4880 ![] bcast_S_S4880),
    binary main_arg5 main_v18 main_v19 (cmpi .slt),
    nullary main_c_2 (constantI S_ 32 4880#32),
    unary main_c_2 main_v20 (broadcastInDim S4880 ![] bcast_S_S4880),
    binary main_arg5 main_v20 main_v21 addi,
    ternary main_v19 main_v21 main_arg5 main_v22 select,
    unary main_v22 main_v23 (broadcastInDim S4880x1 ![0] bcast_S4880_S4880x1_0),
    binary main_v14 main_v23 main_v24 (fun x i => Host.gather gather_S4880x28_S4880x1_S4880x28_1_0_n_n_0_1_128 x i),
    unary main_v1 main_v25 (broadcastInDim S4880x28 ![0, 1] bcast_S4880x1_S4880x28_0_1),
    binary main_v25 main_v24 main_v26 mulf,
    binary main_v17 main_v26 main_v27 (fun a b => concatenate S4880x56 1 [⟨S4880x28, a⟩, ⟨S4880x28, b⟩] concatenates_S4880x28_S4880x28_S4880x56_d1),
    binary main_arg6 main_v15 main_v28 (fun l r => Host.dotGeneral dot_S4880x4880_S4880x56_S4880x56_1_0_0_1_n_n none l r),
    binary main_arg6 main_v27 main_v29 (fun l r => Host.dotGeneral dot_S4880x4880_S4880x56_S4880x56_1_0_0_1_n_n none l r),
    unary main_v0 main_v30 (broadcastInDim S4880x56 ![0, 1] bcast_S4880x1_S4880x56_0_1),
    binary main_v30 main_v28 main_v31 mulf,
    unary main_v0 main_v32 (broadcastInDim S4880x56 ![0, 1] bcast_S4880x1_S4880x56_0_1),
    binary main_v32 main_v29 main_v33 mulf,
    unary main_v1 main_v34 (broadcastInDim S4880x56 ![0, 1] bcast_S4880x1_S4880x56_0_1),
    binary main_v34 main_v29 main_v35 mulf,
    unary main_v1 main_v36 (broadcastInDim S4880x56 ![0, 1] bcast_S4880x1_S4880x56_0_1),
    binary main_v36 main_v28 main_v37 mulf,
    binary main_v15 main_v31 main_v38 addf,
    binary main_v38 main_v33 main_v39 addf,
    binary main_v39 main_arg7 main_v40 (fun l r => Host.dotGeneral dot_S4880x56_S56x32_S4880x32_1_0_0_1_n_n none l r),
    unary main_arg8 main_v41 (broadcastInDim S1x32 ![1] bcast_S32_S1x32_1),
    unary main_v41 main_v42 (broadcastInDim S4880x32 ![0, 1] bcast_S1x32_S4880x32_0_1),
    binary main_v40 main_v42 main_v43 addf,
    nullary main_cst (constant S_ .f32 0x3C23D70A#32),
    TRef.nullary main_call0.cst (constant S_ .f32 0x00000000#32),
    TRef.unary main_call0.cst main_call0.v0 (broadcastInDim S4880x32 ![] bcast_S_S4880x32),
    TRef.binary (.of main_v43 : TRef sig ⟨S4880x32, .f32⟩) main_call0.v0 main_call0.v1 (cmpf .oge),
    TRef.unary (.of main_cst : TRef sig ⟨S_, .f32⟩) main_call0.v2 id,
    TRef.unary main_call0.v2 main_call0.v3 (broadcastInDim S4880x32 ![] bcast_S_S4880x32),
    TRef.binary main_call0.v3 (.of main_v43 : TRef sig ⟨S4880x32, .f32⟩) main_call0.v4 mulf,
    TRef.ternary main_call0.v1 (.of main_v43 : TRef sig ⟨S4880x32, .f32⟩) main_call0.v4 main_call0.call0.v0 select,
    binary main_v27 main_v35 main_v45 addf,
    binary main_v45 main_v37 main_v46 addf,
    binary main_v46 main_arg7 main_v47 (fun l r => Host.dotGeneral dot_S4880x56_S56x32_S4880x32_1_0_0_1_n_n none l r),
    unary main_arg8 main_v48 (broadcastInDim S1x32 ![1] bcast_S32_S1x32_1),
    unary main_v48 main_v49 (broadcastInDim S4880x32 ![0, 1] bcast_S1x32_S4880x32_0_1),
    binary main_v47 main_v49 main_v50 addf,
    nullary main_cst_3 (constant S_ .f32 0x3C23D70A#32),
    TRef.nullary main_call1.cst (constant S_ .f32 0x00000000#32),
    TRef.unary main_call1.cst main_call1.v0 (broadcastInDim S4880x32 ![] bcast_S_S4880x32),
    TRef.binary (.of main_v50 : TRef sig ⟨S4880x32, .f32⟩) main_call1.v0 main_call1.v1 (cmpf .oge),
    TRef.unary (.of main_cst_3 : TRef sig ⟨S_, .f32⟩) main_call1.v2 id,
    TRef.unary main_call1.v2 main_call1.v3 (broadcastInDim S4880x32 ![] bcast_S_S4880x32),
    TRef.binary main_call1.v3 (.of main_v50 : TRef sig ⟨S4880x32, .f32⟩) main_call1.v4 mulf,
    TRef.ternary main_call1.v1 (.of main_v50 : TRef sig ⟨S4880x32, .f32⟩) main_call1.v4 main_call1.call0.v0 select ]

-- seventy-one binds re-associated: the rewrite under the chain recurses once per statement
set_option maxRecDepth 4096 in
/-- @main is that straight line: the two functions' definitions unfolded at their calls, both sides are one chain of
    host steps once sequencing is reassociated. -/
theorem main_eq (c : Dev nD) : main (F := F) c = seq ops := by
  simp only [main, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., unary_bufs_sub .., binary_bufs_sub .., binary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., binary_bufs_sub .., binary_bufs_sub .., binary_bufs_sub .., unary_bufs_sub .., binary_bufs_sub ..,
    unary_bufs_sub .., binary_bufs_sub .., unary_bufs_sub .., binary_bufs_sub .., unary_bufs_sub .., binary_bufs_sub ..,
    binary_bufs_sub .., binary_bufs_sub .., binary_bufs_sub .., unary_bufs_sub .., unary_bufs_sub .., binary_bufs_sub ..,
    nullary_bufs_sub ..,
    nullary_bufs_sub .., unary_bufs_sub .., binary_bufs_sub .., unary_bufs_sub .., unary_bufs_sub .., binary_bufs_sub .., ternary_bufs_sub ..,
    binary_bufs_sub .., binary_bufs_sub .., binary_bufs_sub .., unary_bufs_sub .., unary_bufs_sub .., binary_bufs_sub ..,
    nullary_bufs_sub ..,
    nullary_bufs_sub .., unary_bufs_sub .., binary_bufs_sub .., unary_bufs_sub .., unary_bufs_sub .., binary_bufs_sub .., ternary_bufs_sub ..⟩

/-- Every weakly fair execution of the reference terminates with every buffer at the operations' fold over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.HandRun

end
-- ==== Proof.RefHead.lean ====
/-
  The reference's first 32 operations, read back.

  They build the two indicator columns and the centre and neighbour matrices, exactly as the kernel program's host
  lines before its region do, and write no argument array. Each buffer after them is the composition of the
  operations that lead to it, whatever the buffers held before; an array laid out of two pieces is read
  piece by piece.
-/
import proofs.«117390_j6811818131656_1_alg».proof.Proof.RefRun
import proofs.«117390_j6811818131656_1_alg».proof.Proof.Layer
import proofs.«117390_j6811818131656_1_alg».proof.Proof.HostFold

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- After the first 32 operations the first indicator's column buffer holds the column of the first argument. -/
theorem head_v0 (W : Valuation τ sig (Elt F)) :
    after ((ops (F := F)).take 32) W (Proc.devRef .tc main_v0) = Layer.col (W (Proc.devRef .tc main_arg0)) := by
  unfold Layer.col
  simp only [ops, List.take_succ_cons, List.take_zero]
  after_results_simp
  all_goals rfl

theorem head_v1 (W : Valuation τ sig (Elt F)) :
    after ((ops (F := F)).take 32) W (Proc.devRef .tc main_v1) = Layer.col (W (Proc.devRef .tc main_arg1)) := by
  unfold Layer.col
  simp only [ops, List.take_succ_cons, List.take_zero]
  after_results_simp
  all_goals rfl

theorem head_v15 (W : Valuation τ sig (Elt F)) :
    after ((ops (F := F)).take 32) W (Proc.devRef .tc main_v15)
      = Layer.centre (W (Proc.devRef .tc main_arg0)) (W (Proc.devRef .tc main_arg2)) (W (Proc.devRef .tc main_arg4))
          (W (Proc.devRef .tc main_arg5)) := by
  unfold Layer.centre Layer.catRows Layer.across28 Layer.col Layer.wrapped
  simp only [ops, List.take_succ_cons, List.take_zero]
  after_results_simp
  refine HostFold.concat2_congr _ _ ?_ ?_
  · after_results_simp
    all_goals rfl
  · after_results_simp
    all_goals rfl

theorem head_v27 (W : Valuation τ sig (Elt F)) :
    after ((ops (F := F)).take 32) W (Proc.devRef .tc main_v27)
      = Layer.neighbour (W (Proc.devRef .tc main_arg0)) (W (Proc.devRef .tc main_arg1)) (W (Proc.devRef .tc main_arg3))
          (W (Proc.devRef .tc main_arg4)) (W (Proc.devRef .tc main_arg5)) := by
  unfold Layer.neighbour Layer.catRows Layer.across28 Layer.col Layer.wrapped
  simp only [ops, List.take_succ_cons, List.take_zero]
  after_results_simp
  refine HostFold.concat2_congr _ _ ?_ ?_
  · after_results_simp
    all_goals rfl
  · after_results_simp
    all_goals rfl

theorem head_arg6 (W : Valuation τ sig (Elt F)) :
    after ((ops (F := F)).take 32) W (Proc.devRef .tc main_arg6) = W (Proc.devRef .tc main_arg6) := by
  simp only [ops, List.take_succ_cons, List.take_zero]
  after_results_simp

theorem head_arg7 (W : Valuation τ sig (Elt F)) :
    after ((ops (F := F)).take 32) W (Proc.devRef .tc main_arg7) = W (Proc.devRef .tc main_arg7) := by
  simp only [ops, List.take_succ_cons, List.take_zero]
  after_results_simp

theorem head_arg8 (W : Valuation τ sig (Elt F)) :
    after ((ops (F := F)).take 32) W (Proc.devRef .tc main_arg8) = W (Proc.devRef .tc main_arg8) := by
  simp only [ops, List.take_succ_cons, List.take_zero]
  after_results_simp

end Cert.ReferenceIdeal.HandRun

end
-- ==== Proof.RefTailFirst.lean ====
/-
  The reference's last 39 operations, read at the first result.

  After the centre and neighbour matrices are built the reference multiplies the 4880 × 4880 matrix with each of
  them by its own `dot_general` and applies the shared layer: the first result is the layer on the centre matrix,
  the first indicator's column, and the two products in the order centre, neighbour.
-/
import proofs.«117390_j6811818131656_1_alg».proof.Proof.RefRun
import proofs.«117390_j6811818131656_1_alg».proof.Proof.Layer

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- The first result over whatever the first 32 operations left. -/
theorem tail_v44 (W : Valuation τ sig (Elt F)) :
    after ((ops (F := F)).drop 32) W (Proc.devRef .tc main_v44)
      = Layer.out (W (Proc.devRef .tc main_v15)) (W (Proc.devRef .tc main_v0))
          (Host.dotGeneral dot_S4880x4880_S4880x56_S4880x56_1_0_0_1_n_n none (W (Proc.devRef .tc main_arg6)) (W (Proc.devRef .tc main_v15)))
          (Host.dotGeneral dot_S4880x4880_S4880x56_S4880x56_1_0_0_1_n_n none (W (Proc.devRef .tc main_arg6)) (W (Proc.devRef .tc main_v27)))
          (W (Proc.devRef .tc main_arg7)) (W (Proc.devRef .tc main_arg8)) := by
  unfold Layer.out Layer.leaky Layer.affine Layer.across56
  simp only [ops, List.drop_succ_cons, List.drop_zero]
  after_results_simp
  all_goals rfl

end Cert.ReferenceIdeal.HandRun

end
-- ==== Proof.RefTailSecond.lean ====
/-
  The reference's last 39 operations, read at the second result.

  The second result is the shared layer on the neighbour matrix, the second indicator's column, and the two
  products of the 4880 × 4880 matrix in the order neighbour, centre.
-/
import proofs.«117390_j6811818131656_1_alg».proof.Proof.RefRun
import proofs.«117390_j6811818131656_1_alg».proof.Proof.Layer

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- The second result over whatever the first 32 operations left. -/
theorem tail_v51 (W : Valuation τ sig (Elt F)) :
    after ((ops (F := F)).drop 32) W (Proc.devRef .tc main_v51)
      = Layer.out (W (Proc.devRef .tc main_v27)) (W (Proc.devRef .tc main_v1))
          (Host.dotGeneral dot_S4880x4880_S4880x56_S4880x56_1_0_0_1_n_n none (W (Proc.devRef .tc main_arg6)) (W (Proc.devRef .tc main_v27)))
          (Host.dotGeneral dot_S4880x4880_S4880x56_S4880x56_1_0_0_1_n_n none (W (Proc.devRef .tc main_arg6)) (W (Proc.devRef .tc main_v15)))
          (W (Proc.devRef .tc main_arg7)) (W (Proc.devRef .tc main_arg8)) := by
  unfold Layer.out Layer.leaky Layer.affine Layer.across56
  simp only [ops, List.drop_succ_cons, List.drop_zero]
  after_results_simp
  all_goals rfl

end Cert.ReferenceIdeal.HandRun

end
-- ==== Proof.RefValue.lean ====
/-
  The reference's run with its two results named.

  The 71 operations are the first 32 followed by the last 39, and a fold over a concatenation is the fold over the
  second part of the fold over the first. The last 39 give each result as the shared layer over what the first 32
  left; the first 32 leave the centre and neighbour matrices and the indicator columns; and the host's
  `dot_general` is the matrix product entry by entry. So the two results are `result0` and `result1` of the
  argument arrays as launched, the same two functions the kernel program ends at.
-/
import proofs.«117390_j6811818131656_1_alg».proof.Proof.HostFold
import proofs.«117390_j6811818131656_1_alg».proof.Proof.RefHead
import proofs.«117390_j6811818131656_1_alg».proof.Proof.RefTailFirst
import proofs.«117390_j6811818131656_1_alg».proof.Proof.RefTailSecond
import proofs.«117390_j6811818131656_1_alg».proof.Proof.Results
import proofs.«117390_j6811818131656_1_alg».proof.Proof.FusedDot

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The whole line as its first 32 operations followed by the rest. -/
theorem fold_split (W : Valuation τ sig (Elt F)) :
    after ops W = after ((ops (F := F)).drop 32) (after ((ops (F := F)).take 32) W) :=
  (congrArg (fun l => after l W) (List.take_append_drop 32 (ops (F := F))).symm).trans (HostFold.after_append _ _ W)

/-- The reference's `dot_general` of the 4880 × 4880 matrix with a 4880 × 56 one is their product. -/
theorem refDot_eq (A : FVec Ideal S4880x4880 .f32) (B : FVec Ideal S4880x56 .f32) :
    Host.dotGeneral dot_S4880x4880_S4880x56_S4880x56_1_0_0_1_n_n none A B = FusedDot.prod 4880 4880 56 A B :=
  FusedDot.hostDot_eq 4880 4880 56 A B

theorem fold_v44 (W : Valuation τ sig (Elt Ideal)) :
    after ops W (Proc.devRef .tc main_v44) = Layer.result0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  unfold Layer.result0
  rw [fold_split, tail_v44, head_v15, head_v27, head_v0, head_arg6, head_arg7, head_arg8, refDot_eq, refDot_eq]
  all_goals rfl

theorem fold_v51 (W : Valuation τ sig (Elt Ideal)) :
    after ops W (Proc.devRef .tc main_v51) = Layer.result1 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  unfold Layer.result1
  rw [fold_split, tail_v51, head_v15, head_v27, head_v1, head_arg6, head_arg7, head_arg8, refDot_eq, refDot_eq]
  all_goals rfl

theorem fold_arg0 (W : Valuation τ sig (Elt F)) :
    after ops W (Proc.devRef .tc main_arg0) = W (Proc.devRef .tc main_arg0) := by
  after_results_simp

theorem fold_arg1 (W : Valuation τ sig (Elt F)) :
    after ops W (Proc.devRef .tc main_arg1) = W (Proc.devRef .tc main_arg1) := by
  after_results_simp

theorem fold_arg2 (W : Valuation τ sig (Elt F)) :
    after ops W (Proc.devRef .tc main_arg2) = W (Proc.devRef .tc main_arg2) := by
  after_results_simp

theorem fold_arg3 (W : Valuation τ sig (Elt F)) :
    after ops W (Proc.devRef .tc main_arg3) = W (Proc.devRef .tc main_arg3) := by
  after_results_simp

theorem fold_arg4 (W : Valuation τ sig (Elt F)) :
    after ops W (Proc.devRef .tc main_arg4) = W (Proc.devRef .tc main_arg4) := by
  after_results_simp

theorem fold_arg5 (W : Valuation τ sig (Elt F)) :
    after ops W (Proc.devRef .tc main_arg5) = W (Proc.devRef .tc main_arg5) := by
  after_results_simp

theorem fold_arg6 (W : Valuation τ sig (Elt F)) :
    after ops W (Proc.devRef .tc main_arg6) = W (Proc.devRef .tc main_arg6) := by
  after_results_simp

theorem fold_arg7 (W : Valuation τ sig (Elt F)) :
    after ops W (Proc.devRef .tc main_arg7) = W (Proc.devRef .tc main_arg7) := by
  after_results_simp

theorem fold_arg8 (W : Valuation τ sig (Elt F)) :
    after ops W (Proc.devRef .tc main_arg8) = W (Proc.devRef .tc main_arg8) := by
  after_results_simp

/-- Every weakly fair execution of the reference terminates with its two results at `result0` and `result1` of the
    launch contents and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = Layer.result0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v51) = Layer.result1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c main_v44).trans (fold_v44 _), (h c main_v51).trans (fold_v51 _),
      (h c main_arg0).trans (fold_arg0 _),
      (h c main_arg1).trans (fold_arg1 _),
      (h c main_arg2).trans (fold_arg2 _),
      (h c main_arg3).trans (fold_arg3 _),
      (h c main_arg4).trans (fold_arg4 _),
      (h c main_arg5).trans (fold_arg5 _),
      (h c main_arg6).trans (fold_arg6 _),
      (h c main_arg7).trans (fold_arg7 _),
      (h c main_arg8).trans (fold_arg8 _)⟩)
    (run_fold m ρ)

end Cert.ReferenceIdeal.HandRun

end
-- ==== Proof.lean ====
/-
  The kernel program and its reference compute the same two arrays over the extended reals.

  Both programs build, from the nine arguments, the same two 4880 × 56 matrices `centre` and `neighbour`, multiply
  the 4880 × 4880 matrix `A` with them, and end with the same layer applied twice,
  `out(centre, u, A·centre, A·neighbour)` and `out(neighbour, v, A·neighbour, A·centre)`.
  The reference takes the two products by two `dot_general`s. The kernel program lays the two matrices side by side,
  multiplies once in a region that walks ten blocks of 488 rows of `A` (each block a product into zeros, its inputs
  cast to a narrower float format, which is the identity on the extended reals), and slices the 112 columns of the
  result back into two halves. Entry `(p, q)` of a product reads only column `q` of its right operand, so the left
  half of `A · [centre | neighbour]` is `A · centre` and the right half `A · neighbour`, entry by entry: the same
  sums of the same terms, with no law of arithmetic between them. That is why the precondition (every float input
  finite) is never opened, and why the integer category indices may be anything: both programs wrap and gather
  with them in the same way.

  The three frames: the two kernel programs' are the generated frame certificates; the reference has no kernel, and
  its frame is its run (its 71 host operations in order) with the results dropped. The idealization rewrote no
  operation, so `preserves` has nothing to state.
-/
import proofs.«117390_j6811818131656_1_alg».proof.Defs
import proofs.«117390_j6811818131656_1_alg».proof.Proof.Gen.Kernel
import proofs.«117390_j6811818131656_1_alg».proof.Proof.Gen.Kernel.Frame
import proofs.«117390_j6811818131656_1_alg».proof.Proof.Gen.KernelIdeal
import proofs.«117390_j6811818131656_1_alg».proof.Proof.Gen.KernelIdeal.Frame
import proofs.«117390_j6811818131656_1_alg».proof.Proof.Gen.ReferenceIdeal
import proofs.«117390_j6811818131656_1_alg».proof.Proof.Gen.Pre_finite_inputs
import proofs.«117390_j6811818131656_1_alg».proof.Proof.KernelValue
import proofs.«117390_j6811818131656_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.HandRun.run m ρ)

theorem preserves : Cert.preserves_Kernel_KernelIdeal := trivial

/-- Both programs end at `result0` and `result1` of their launch contents, and the launch contents agree. -/
theorem algebraic : Cert.algebraic_KernelIdeal_ReferenceIdeal := by
  intro m ρ m' ρ' _ hagree
  refine ⟨_, _, Cert.KernelIdeal.ValueRun.run m ρ, ?_⟩
  refine (θ_run Cert.ReferenceIdeal.defs _ _).mono (fun _ h c => ?_) (Cert.ReferenceIdeal.HandRun.run m' ρ')
  obtain ⟨h0, h1, hargs⟩ := h c
  obtain ⟨e0, e1, e2, e3, e4, e5, e6, e7, e8⟩ := hagree c
  refine ⟨h0.trans ?_, h1.trans ?_, hargs⟩
  · rw [e0, e1, e2, e3, e4, e5, e6, e7, e8]
  · rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
